-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x27 : Shape := ⟨2, ![524288, 27]⟩
abbrev S21x1024x27 : Shape := ⟨3, ![21, 1024, 27]⟩
abbrev S_ : Shape := ⟨0, ![]⟩

class Facts : Prop where
  bcast_S_S524288x27 : S_.BroadcastsInDim S524288x27 (![] : Fin 0 → Fin S524288x27.rank)
  reducesTo_S524288x27_S_d0_1 : S524288x27.ReducesTo [0, 1] S_
  h_S_ : 0 < S_.numel
  bcast_S_S21x1024x27 : S_.BroadcastsInDim S21x1024x27 (![] : Fin 0 → Fin S21x1024x27.rank)
  reducesTo_S21x1024x27_S_d0_1_2 : S21x1024x27.ReducesTo [0, 1, 2] S_

variable [Facts]

def fn {F : FTy → Type} [FloatOps F] (main_arg0 : FVec F S524288x27 .f32) (main_arg1 : FVec F S21x1024x27 .f32) : IVec S_ 1 :=
  let main_v0 : FVec F S524288x27 .f32 := Host.absf main_arg0
  let main_cst : FVec F S_ .f32 := constant S_ .f32 0x7F800000#32
  let main_v1 : FVec F S524288x27 .f32 := broadcastInDim S524288x27 ![] bcast_S_S524288x27 main_cst
  let main_v2 : IVec S524288x27 1 := cmpf .olt main_v0 main_v1
  let main_c : IVec S_ 1 := constantI S_ 1 1#1
  let main_v3 : IVec S_ 1 := (fun x v => Host.reduce IntOp.andi x v reducesTo_S524288x27_S_d0_1 h_S_) main_v2 main_c
  let main_v4 : FVec F S21x1024x27 .f32 := Host.absf main_arg1
  let main_cst_0 : FVec F S_ .f32 := constant S_ .f32 0x7F800000#32
  let main_v5 : FVec F S21x1024x27 .f32 := broadcastInDim S21x1024x27 ![] bcast_S_S21x1024x27 main_cst_0
  let main_v6 : IVec S21x1024x27 1 := cmpf .olt main_v4 main_v5
  let main_c_1 : IVec S_ 1 := constantI S_ 1 1#1
  let main_v7 : IVec S_ 1 := (fun x v => Host.reduce IntOp.andi x v reducesTo_S21x1024x27_S_d0_1_2 h_S_) main_v6 main_c_1
  let main_v8 : IVec S_ 1 := andi main_v3 main_v7
  main_v8
-- ==== Kernel.lean ====
abbrev S524288x27 : Shape := ⟨2, ![524288, 27]⟩
abbrev S21x1024x27 : Shape := ⟨3, ![21, 1024, 27]⟩
abbrev S21 : Shape := ⟨1, ![21]⟩
abbrev S1x21 : Shape := ⟨2, ![1, 21]⟩
abbrev S21x1024x1 : Shape := ⟨3, ![21, 1024, 1]⟩
abbrev S21x1024 : Shape := ⟨2, ![21, 1024]⟩
abbrev S_ : Shape := ⟨0, ![]⟩
abbrev S524288x4 : Shape := ⟨2, ![524288, 4]⟩
abbrev S2048x27 : Shape := ⟨2, ![2048, 27]⟩
abbrev S2048x4 : Shape := ⟨2, ![2048, 4]⟩
abbrev S2048x1 : Shape := ⟨2, ![2048, 1]⟩
abbrev S2048x21 : Shape := ⟨2, ![2048, 21]⟩
abbrev S2048 : Shape := ⟨1, ![2048]⟩

abbrev nBuf : Space → Nat
  | .hbm => 15
  | .vmem => 7
  | .smem => 0
  | _ => 0

abbrev bufTy : (tb : Table) → Fin (tcTables nBuf tb) → BufTy
  | .hbm, ⟨0, _⟩ => ⟨S524288x27, .f32⟩
  | .hbm, ⟨1, _⟩ => ⟨S21x1024x27, .f32⟩
  | .hbm, ⟨2, _⟩ => ⟨S21, .f32⟩
  | .hbm, ⟨3, _⟩ => ⟨S1x21, .f32⟩
  | .hbm, ⟨4, _⟩ => ⟨S21x1024x1, .f32⟩
  | .hbm, ⟨5, _⟩ => ⟨S21x1024, .f32⟩
  | .hbm, ⟨6, _⟩ => ⟨S_, .f32⟩
  | .hbm, ⟨7, _⟩ => ⟨S21, .f32⟩
  | .hbm, ⟨8, _⟩ => ⟨S1x21, .f32⟩
  | .hbm, ⟨9, _⟩ => ⟨S21x1024x1, .f32⟩
  | .hbm, ⟨10, _⟩ => ⟨S21x1024, .f32⟩
  | .hbm, ⟨11, _⟩ => ⟨S_, .f32⟩
  | .hbm, ⟨12, _⟩ => ⟨S21, .f32⟩
  | .hbm, ⟨13, _⟩ => ⟨S1x21, .f32⟩
  | .hbm, ⟨14, _⟩ => ⟨S524288x4, .f32⟩
  | .local _ .vmem, ⟨0, _⟩ => ⟨S2048x27, .f32⟩
  | .local _ .vmem, ⟨1, _⟩ => ⟨S2048x27, .f32⟩
  | .local _ .vmem, ⟨2, _⟩ => ⟨S1x21, .f32⟩
  | .local _ .vmem, ⟨3, _⟩ => ⟨S1x21, .f32⟩
  | .local _ .vmem, ⟨4, _⟩ => ⟨S1x21, .f32⟩
  | .local _ .vmem, ⟨5, _⟩ => ⟨S2048x4, .f32⟩
  | .local _ .vmem, ⟨6, _⟩ => ⟨S2048x4, .f32⟩
  | _, _ => ⟨S524288x27, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x27 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x21 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x21 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x21 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S21_S1x21 : S21.ShapeCasts S1x21
  slices_S21x1024x27_S21x1024x1_0_0_0 : S21x1024x27.Slices ![0, 0, 0] S21x1024x1
  shapeCasts_S21x1024x1_S21x1024 : S21x1024x1.ShapeCasts S21x1024
  reducesTo_S21x1024_S21_d1 : S21x1024.ReducesTo [1] S21
  h_S_ : 0 < S_.numel
  slices_S21x1024x27_S21x1024x1_0_0_25 : S21x1024x27.Slices ![0, 0, 25] S21x1024x1
  inb_S2048x27_S2048x1_0_0 : ∀ a, (![0, 0] : Fin 2 → Nat) a + S2048x1.size a ≤ S2048x27.size a
  h_S2048x1 : 0 < S2048x1.numel
  inb_S2048x27_S2048x1_0_25 : ∀ a, (![0, 25] : Fin 2 → Nat) a + S2048x1.size a ≤ S2048x27.size a
  inb_S1x21_S1x21_0_0 : ∀ a, (![0, 0] : Fin 2 → Nat) a + S1x21.size a ≤ S1x21.size a
  h_S1x21 : 0 < S1x21.numel
  shapeCasts_S1x21_S1x21 : S1x21.ShapeCasts S1x21
  broadcasts_S2048x1_S2048x21 : S2048x1.Broadcasts S2048x21
  broadcasts_S1x21_S2048x21 : S1x21.Broadcasts S2048x21
  reduces_S2048x21_S2048 : S2048x21.Reduces [1] S2048
  shapeCasts_S2048_S2048x1 : S2048.ShapeCasts S2048x1
  concatenates_S2048x1_S2048x1_S2048x1_S2048x1_S2048x4_d1 : Shape.Concatenates [S2048x1, S2048x1, S2048x1, S2048x1] S2048x4 1
  inb_S2048x4_S2048x4_0_0 : ∀ a, (![0, 0] : Fin 2 → Nat) a + S2048x4.size a ≤ S2048x4.size a
  h_S2048x4 : 0 < S2048x4.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x27.size a ≤ S524288x27.size a
  hwx0_0 : ∀ i : grid0.Coords, EltTy.bits .f32 = 32 ∨ (Rect.block (s := S524288x27) S2048x27.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x21.size a ≤ S1x21.size a
  hwx0_1 : ∀ i : grid0.Coords, EltTy.bits .f32 = 32 ∨ (Rect.block (s := S1x21) S1x21.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x21.size a ≤ S1x21.size a
  hwx0_2 : ∀ i : grid0.Coords, EltTy.bits .f32 = 32 ∨ (Rect.block (s := S1x21) S1x21.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x21.size a ≤ S1x21.size a
  hwx0_3 : ∀ i : grid0.Coords, EltTy.bits .f32 = 32 ∨ (Rect.block (s := S1x21) S1x21.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x4.size a ≤ S524288x4.size a
  hwx0_4 : ∀ i : grid0.Coords, EltTy.bits .f32 = 32 ∨ (Rect.block (s := S524288x4) S2048x4.size (cc0_transform_4 i) (hinb0_4 i)).WholeWords (EltTy.packing .f32)

variable [Facts₀]

abbrev win0_0 : Pipeline.Window sig grid0 :=
  Pipeline.Window.ofSpec (Memref.whole main_arg0) S2048x27.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x21.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x21.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x21.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S2048x4.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S524288x27 : Shape := ⟨2, ![524288, 27]⟩
abbrev S21x1024x27 : Shape := ⟨3, ![21, 1024, 27]⟩
abbrev S21 : Shape := ⟨1, ![21]⟩
abbrev S21x1024x1 : Shape := ⟨3, ![21, 1024, 1]⟩
abbrev S21x1024 : Shape := ⟨2, ![21, 1024]⟩
abbrev S_ : Shape := ⟨0, ![]⟩
abbrev S524288x1 : Shape := ⟨2, ![524288, 1]⟩
abbrev S524288 : Shape := ⟨1, ![524288]⟩
abbrev S1x21 : Shape := ⟨2, ![1, 21]⟩
abbrev S524288x21 : Shape := ⟨2, ![524288, 21]⟩
abbrev S524288x4 : Shape := ⟨2, ![524288, 4]⟩

abbrev nBuf : Space → Nat
  | .hbm => 67
  | .vmem => 0
  | .smem => 0
  | _ => 0

abbrev bufTy : (tb : Table) → Fin (tcTables nBuf tb) → BufTy
  | .hbm, ⟨0, _⟩ => ⟨S524288x27, .f32⟩
  | .hbm, ⟨1, _⟩ => ⟨S21x1024x27, .f32⟩
  | .hbm, ⟨2, _⟩ => ⟨S21, .f32⟩
  | .hbm, ⟨3, _⟩ => ⟨S21x1024x1, .f32⟩
  | .hbm, ⟨4, _⟩ => ⟨S21x1024, .f32⟩
  | .hbm, ⟨5, _⟩ => ⟨S_, .f32⟩
  | .hbm, ⟨6, _⟩ => ⟨S21, .f32⟩
  | .hbm, ⟨7, _⟩ => ⟨S21x1024x1, .f32⟩
  | .hbm, ⟨8, _⟩ => ⟨S21x1024, .f32⟩
  | .hbm, ⟨9, _⟩ => ⟨S_, .f32⟩
  | .hbm, ⟨10, _⟩ => ⟨S21, .f32⟩
  | .hbm, ⟨11, _⟩ => ⟨S524288x1, .f32⟩
  | .hbm, ⟨12, _⟩ => ⟨S524288, .f32⟩
  | .hbm, ⟨13, _⟩ => ⟨S524288x1, .f32⟩
  | .hbm, ⟨14, _⟩ => ⟨S1x21, .f32⟩
  | .hbm, ⟨15, _⟩ => ⟨S524288x21, .f32⟩
  | .hbm, ⟨16, _⟩ => ⟨S524288x21, .f32⟩
  | .hbm, ⟨17, _⟩ => ⟨S524288x21, .f32⟩
  | .hbm, ⟨18, _⟩ => ⟨S524288x1, .f32⟩
  | .hbm, ⟨19, _⟩ => ⟨S524288, .f32⟩
  | .hbm, ⟨20, _⟩ => ⟨S524288x1, .f32⟩
  | .hbm, ⟨21, _⟩ => ⟨S1x21, .f32⟩
  | .hbm, ⟨22, _⟩ => ⟨S524288x21, .f32⟩
  | .hbm, ⟨23, _⟩ => ⟨S524288x21, .f32⟩
  | .hbm, ⟨24, _⟩ => ⟨S524288x21, .f32⟩
  | .hbm, ⟨25, _⟩ => ⟨S1x21, .f32⟩
  | .hbm, ⟨26, _⟩ => ⟨S_, .f32⟩
  | .hbm, ⟨27, _⟩ => ⟨S524288x21, .f32⟩
  | .hbm, ⟨28, _⟩ => ⟨S524288x21, .i1⟩
  | .hbm, ⟨29, _⟩ => ⟨S_, .f32⟩
  | .hbm, ⟨30, _⟩ => ⟨S524288x21, .f32⟩
  | .hbm, ⟨31, _⟩ => ⟨S524288x21, .f32⟩
  | .hbm, ⟨32, _⟩ => ⟨S524288x21, .f32⟩
  | .hbm, ⟨33, _⟩ => ⟨S_, .f32⟩
  | .hbm, ⟨34, _⟩ => ⟨S524288, .f32⟩
  | .hbm, ⟨35, _⟩ => ⟨S_, .f32⟩
  | .hbm, ⟨36, _⟩ => ⟨S524288x21, .f32⟩
  | .hbm, ⟨37, _⟩ => ⟨S524288x21, .i1⟩
  | .hbm, ⟨38, _⟩ => ⟨S_, .f32⟩
  | .hbm, ⟨39, _⟩ => ⟨S524288x21, .f32⟩
  | .hbm, ⟨40, _⟩ => ⟨S524288x21, .f32⟩
  | .hbm, ⟨41, _⟩ => ⟨S524288x21, .f32⟩
  | .hbm, ⟨42, _⟩ => ⟨S_, .f32⟩
  | .hbm, ⟨43, _⟩ => ⟨S524288, .f32⟩
  | .hbm, ⟨44, _⟩ => ⟨S_, .f32⟩
  | .hbm, ⟨45, _⟩ => ⟨S524288x21, .f32⟩
  | .hbm, ⟨46, _⟩ => ⟨S524288x21, .i1⟩
  | .hbm, ⟨47, _⟩ => ⟨S_, .f32⟩
  | .hbm, ⟨48, _⟩ => ⟨S524288x21, .f32⟩
  | .hbm, ⟨49, _⟩ => ⟨S524288x21, .f32⟩
  | .hbm, ⟨50, _⟩ => ⟨S524288x21, .f32⟩
  | .hbm, ⟨51, _⟩ => ⟨S_, .f32⟩
  | .hbm, ⟨52, _⟩ => ⟨S524288, .f32⟩
  | .hbm, ⟨53, _⟩ => ⟨S_, .f32⟩
  | .hbm, ⟨54, _⟩ => ⟨S524288x21, .f32⟩
  | .hbm, ⟨55, _⟩ => ⟨S524288x21, .i1⟩
  | .hbm, ⟨56, _⟩ => ⟨S_, .f32⟩
  | .hbm, ⟨57, _⟩ => ⟨S524288x21, .f32⟩
  | .hbm, ⟨58, _⟩ => ⟨S524288x21, .f32⟩
  | .hbm, ⟨59, _⟩ => ⟨S524288x21, .f32⟩
  | .hbm, ⟨60, _⟩ => ⟨S_, .f32⟩
  | .hbm, ⟨61, _⟩ => ⟨S524288, .f32⟩
  | .hbm, ⟨62, _⟩ => ⟨S524288x1, .f32⟩
  | .hbm, ⟨63, _⟩ => ⟨S524288x1, .f32⟩
  | .hbm, ⟨64, _⟩ => ⟨S524288x1, .f32⟩
  | .hbm, ⟨65, _⟩ => ⟨S524288x1, .f32⟩
  | .hbm, ⟨66, _⟩ => ⟨S524288x4, .f32⟩
  | _, _ => ⟨S524288x27, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_call1_v0 : Ref sig .tc := ⟨.hbm, 39, rfl⟩
abbrev main_call1_v1 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩
abbrev main_cst_9 : Ref sig .tc := ⟨.hbm, 47, rfl⟩
abbrev main_call2_v0 : Ref sig .tc := ⟨.hbm, 48, rfl⟩
abbrev main_call2_v1 : Ref sig .tc := ⟨.hbm, 49, rfl⟩
abbrev main_v31 : Ref sig .tc := ⟨.hbm, 50, rfl⟩
abbrev main_cst_10 : Ref sig .tc := ⟨.hbm, 51, rfl⟩
abbrev main_v32 : Ref sig .tc := ⟨.hbm, 52, rfl⟩
abbrev main_cst_11 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_call3_v0 : Ref sig .tc := ⟨.hbm, 57, rfl⟩
abbrev main_call3_v1 : Ref sig .tc := ⟨.hbm, 58, rfl⟩
abbrev main_v35 : Ref sig .tc := ⟨.hbm, 59, rfl⟩
abbrev main_cst_13 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩

abbrev nD : Nat := 1
abbrev τ : Topo := Topo.v7x

variable {F : FTy → Type} [FloatOps F]

class Facts₀ : Prop where
  slices_S21x1024x27_S21x1024x1_0_0_0 : S21x1024x27.Slices ![0, 0, 0] S21x1024x1
  shapeCasts_S21x1024x1_S21x1024 : S21x1024x1.ShapeCasts S21x1024
  reducesTo_S21x1024_S21_d1 : S21x1024.ReducesTo [1] S21
  h_S_ : 0 < S_.numel
  slices_S21x1024x27_S21x1024x1_0_0_25 : S21x1024x27.Slices ![0, 0, 25] S21x1024x1
  slices_S524288x27_S524288x1_0_0 : S524288x27.Slices ![0, 0] S524288x1
  shapeCasts_S524288x1_S524288 : S524288x1.ShapeCasts S524288
  bcast_S524288_S524288x1_0 : S524288.BroadcastsInDim S524288x1 (![0] : Fin 1 → Fin S524288x1.rank)
  bcast_S21_S1x21_1 : S21.BroadcastsInDim S1x21 (![1] : Fin 1 → Fin S1x21.rank)
  bcast_S524288x1_S524288x21_0_1 : S524288x1.BroadcastsInDim S524288x21 (![0, 1] : Fin 2 → Fin S524288x21.rank)
  bcast_S1x21_S524288x21_0_1 : S1x21.BroadcastsInDim S524288x21 (![0, 1] : Fin 2 → Fin S524288x21.rank)
  slices_S524288x27_S524288x1_0_25 : S524288x27.Slices ![0, 25] S524288x1
  bcast_S_S524288x21 : S_.BroadcastsInDim S524288x21 (![] : Fin 0 → Fin S524288x21.rank)
  reducesTo_S524288x21_S524288_d1 : S524288x21.ReducesTo [1] S524288
  concatenates_S524288x1_S524288x1_S524288x1_S524288x1_S524288x4_d1 : Shape.Concatenates [S524288x1, S524288x1, S524288x1, S524288x1] S524288x4 1

variable [Facts₀]

class Facts : Prop extends Facts₀ where

variable [Facts]
-- ==== Proof.Spec.lean ====
/-
  The mathematics the two programs share, stated once over literal shapes and away from either program.

  Each of the 524288 boards is a row of 27 numbers; of these only column 0 and column 25 are read. From the
  second argument (21 dice combinations, 1024 candidate moves, 27 slots) only two vectors of length 21 matter:
  the least offset at slot 0 and the greatest offset at slot 25, per combination. Entry (r, j) of the result is a sum
  over the 21 combinations c of the combination's probability where a comparison holds and of zero elsewhere:
    j = 0 : x r 0 + lo c < -1      j = 1 : x r 0 + lo c = -1
    j = 2 : x r 25 + hi c = 1      j = 3 : x r 25 + hi c > 1.
  The kernel computes a block of 2048 rows with vector operations (broadcasts down the rows, a lane reduction, a
  concatenation of four columns); the reference computes all rows with host operations (slices, broadcasts in
  dimensions, a reduce with an initial zero, a concatenation). Both are read here, one column at a time, to the same
  finite sum `hit`; the host's initial zero is absorbed by `0 + s = s`, which holds for every extended real.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.HitSpec

open Idealize.ShloMosaic Idealize.ShloMosaic.ValueIdx
open scoped BigOperators

/-! ## One entry -/

/-- Over the 21 combinations `c`: the probability `fac c` where the shifted coordinate `a + off c` stands in the
    relation `p` to the threshold `lit`, and `zero` elsewhere, summed. -/
def hit (p : CmpFPredicate) (lit zero a : EReal) (off fac : Fin 21 → EReal) : EReal :=
  ∑ c : Fin 21, Scalar.select (FloatOps.cmpf (F := Ideal) (φ := .f32) p (a + off c) lit) (fac c) zero

/-- Entry `j` of a board's row of four, from the board's coordinates `a` (slot 0) and `b` (slot 25): below and at the
    threshold `-1` against the least offsets, at and above the threshold `1` against the greatest. -/
def entry (a b : EReal) (lo hi fac : Fin 21 → EReal) (j : Fin 4) : EReal :=
  match j with
  | 0 => hit .olt (Ideal.ofBits .f32 0xBF800000#32) (Ideal.ofBits .f32 0x00000000#32) a lo fac
  | 1 => hit .oeq (Ideal.ofBits .f32 0xBF800000#32) (Ideal.ofBits .f32 0x00000000#32) a lo fac
  | 2 => hit .oeq (Ideal.ofBits .f32 0x3F800000#32) (Ideal.ofBits .f32 0x00000000#32) b hi fac
  | 3 => hit .ogt (Ideal.ofBits .f32 0x3F800000#32) (Ideal.ofBits .f32 0x00000000#32) b hi fac

/-- The whole result as one function of the boards and of the three vectors over the combinations. -/
def G (x : (⟨2, ![524288, 27]⟩ : Shape).Idx → EReal) (lo hi fac : (⟨1, ![21]⟩ : Shape).Idx → EReal) :
    (⟨2, ![524288, 4]⟩ : Shape).Idx → EReal :=
  fun i => entry (x (ix2 (i 0 : Fin 524288) (0 : Fin 27))) (x (ix2 (i 0 : Fin 524288) (25 : Fin 27)))
    (fun c => lo (ix1 c)) (fun c => hi (ix1 c)) (fun c => fac (ix1 c)) (i 1 : Fin 4)

/-- `entry` of equal coordinates, equal vectors and the same column. -/
theorem entry_congr {a a' b b' : EReal} {lo lo' hi hi' fac fac' : Fin 21 → EReal} {j j' : Fin 4} (ha : a = a') (hb : b = b')
    (hlo : ∀ c, lo c = lo' c) (hhi : ∀ c, hi c = hi' c) (hfac : ∀ c, fac c = fac' c) (hj : j = j') :
    entry a b lo hi fac j = entry a' b' lo' hi' fac' j' := by
  obtain rfl := funext hlo
  obtain rfl := funext hhi
  obtain rfl := funext hfac
  subst ha hb hj
  rfl

/-! ## Column layouts read at an index -/

section Layout
variable {α : Type}

/-- A vector of `a` entries cast to one column reads, at `(r, u)`, its entry `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- One column cast to a vector reads, at `r`, the column's entry `(r, 0)`. -/
theorem shapeCast_a1_a_apply {a : ℕ} (x : (⟨2, ![a, 1]⟩ : Shape).Idx → α) (h : (⟨2, ![a, 1]⟩ : Shape).ShapeCasts ⟨1, ![a]⟩)
    (r : Fin a) : shapeCast ⟨1, ![a]⟩ x h (ix1 r) = x (ix2 r (0 : Fin 1)) :=
  shapeCast_apply x h _ _ (by
    rw [Shape.rowMajor_val_two, Shape.rowMajor_val_one]
    show r.val * 1 + 0 = r.val
    omega)

/-- One column broadcast along `b` lanes reads, at `(r, c)`, the column's entry `(r, 0)`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- The host's broadcast of a vector to one column (`dims = [0]`) reads, at `(r, u)`, its entry `r`. -/
theorem broadcastInDim_a_a1_apply {a : ℕ} (hd : (⟨1, ![a]⟩ : Shape).BroadcastsInDim ⟨2, ![a, 1]⟩ ![0])
    (x : (⟨1, ![a]⟩ : Shape).Idx → α) (r : Fin a) (u : Fin 1) :
    broadcastInDim ⟨2, ![a, 1]⟩ ![0] hd x (ix2 r u) = x (ix1 r) := by
  refine broadcastInDim_apply ![0] hd x (ix2 r u) (ix1 r) fun ax => ?_
  match ax with
  | ⟨0, _⟩ =>
    show r.val = if a = 1 then 0 else r.val
    split
    · have := r.isLt; omega
    · rfl

/-- The host's broadcast of one column along `b` lanes (`dims = [0, 1]`) reads, at `(r, c)`, the column's entry `(r, 0)`. -/
theorem broadcastInDim_a1_ab_apply {a b : ℕ} (hd : (⟨2, ![a, 1]⟩ : Shape).BroadcastsInDim ⟨2, ![a, b]⟩ ![0, 1])
    (x : (⟨2, ![a, 1]⟩ : Shape).Idx → α) (r : Fin a) (c : Fin b) :
    broadcastInDim ⟨2, ![a, b]⟩ ![0, 1] hd x (ix2 r c) = x (ix2 r (0 : Fin 1)) := by
  refine broadcastInDim_apply ![0, 1] hd x (ix2 r c) (ix2 r (0 : Fin 1)) fun ax => ?_
  match ax with
  | ⟨0, _⟩ =>
    show r.val = if a = 1 then 0 else r.val
    split
    · have := r.isLt; omega
    · rfl
  | ⟨1, _⟩ => rfl

/-- The host's broadcast of a vector to one row (`dims = [1]`) reads, at `(u, c)`, its entry `c`. -/
theorem broadcastInDim_b_1b_apply {b : ℕ} (hd : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] hd x (ix2 u c) = x (ix1 c) := by
  refine broadcastInDim_apply ![1] hd x (ix2 u c) (ix1 c) fun ax => ?_
  match ax with
  | ⟨0, _⟩ =>
    show c.val = if b = 1 then 0 else c.val
    split
    · have := c.isLt; omega
    · rfl

/-- Four columns set side by side read, at `(r, j)`, column `j` at `(r, 0)`. -/
theorem concat4_apply {a : ℕ} (x0 x1 x2 x3 : (⟨2, ![a, 1]⟩ : Shape).Idx → α)
    (h : Shape.Concatenates [(⟨2, ![a, 1]⟩ : Shape), ⟨2, ![a, 1]⟩, ⟨2, ![a, 1]⟩, ⟨2, ![a, 1]⟩] ⟨2, ![a, 4]⟩ 1)
    (r : Fin a) (j : Fin 4) :
    concatenate ⟨2, ![a, 4]⟩ 1 [⟨⟨2, ![a, 1]⟩, x0⟩, ⟨⟨2, ![a, 1]⟩, x1⟩, ⟨⟨2, ![a, 1]⟩, x2⟩, ⟨⟨2, ![a, 1]⟩, x3⟩] h (ix2 r j)
      = (match j with | 0 => x0 | 1 => x1 | 2 => x2 | 3 => x3) (ix2 r (0 : Fin 1)) := by
  have hi : ∀ b : Fin 2, b.cast rfl ≠ (1 : Fin 2) → ((ix2 r (0 : Fin 1) : (⟨2, ![a, 1]⟩ : Shape).Idx) b).val = ((ix2 r j : (⟨2, ![a, 4]⟩ : Shape).Idx) (b.cast rfl)).val := by
    intro b hb
    match b with
    | ⟨0, _⟩ => rfl
    | ⟨1, _⟩ => exact absurd rfl hb
  match j with
  | 0 => exact concatenate_apply_piece (t := ⟨2, ![a, 4]⟩) (1 : Fin 2) [⟨⟨2, ![a, 1]⟩, x0⟩, ⟨⟨2, ![a, 1]⟩, x1⟩, ⟨⟨2, ![a, 1]⟩, x2⟩, ⟨⟨2, ![a, 1]⟩, x3⟩] h (ix2 r 0) 0 (by simp) ⟨2, ![a, 1]⟩ x0 rfl rfl 0 rfl (ix2 r (0 : Fin 1)) hi rfl
  | 1 => exact concatenate_apply_piece (t := ⟨2, ![a, 4]⟩) (1 : Fin 2) [⟨⟨2, ![a, 1]⟩, x0⟩, ⟨⟨2, ![a, 1]⟩, x1⟩, ⟨⟨2, ![a, 1]⟩, x2⟩, ⟨⟨2, ![a, 1]⟩, x3⟩] h (ix2 r 1) 1 (by simp) ⟨2, ![a, 1]⟩ x1 rfl rfl 1 rfl (ix2 r (0 : Fin 1)) hi rfl
  | 2 => exact concatenate_apply_piece (t := ⟨2, ![a, 4]⟩) (1 : Fin 2) [⟨⟨2, ![a, 1]⟩, x0⟩, ⟨⟨2, ![a, 1]⟩, x1⟩, ⟨⟨2, ![a, 1]⟩, x2⟩, ⟨⟨2, ![a, 1]⟩, x3⟩] h (ix2 r 2) 2 (by simp) ⟨2, ![a, 1]⟩ x2 rfl rfl 2 rfl (ix2 r (0 : Fin 1)) hi rfl
  | 3 => exact concatenate_apply_piece (t := ⟨2, ![a, 4]⟩) (1 : Fin 2) [⟨⟨2, ![a, 1]⟩, x0⟩, ⟨⟨2, ![a, 1]⟩, x1⟩, ⟨⟨2, ![a, 1]⟩, x2⟩, ⟨⟨2, ![a, 1]⟩, x3⟩] h (ix2 r 3) 3 (by simp) ⟨2, ![a, 1]⟩ x3 rfl rfl 3 rfl (ix2 r (0 : Fin 1)) hi rfl

end Layout

/-! ## One column of the kernel's block -/

/-- The index a sum along axis 1 of a matrix inserts at row `r` and position `c` is `(r, c)`. -/
theorem lift_row {R K : ℕ} (h : (⟨2, ![R, K]⟩ : Shape).Reduces [1] ⟨1, ![R]⟩) (r : Fin R) (c : Fin K) :
    h.lift (ix1 r) c = ix2 r c :=
  funext fun a => Fin.ext (match a with | ⟨0, _⟩ => rfl | ⟨1, _⟩ => rfl)

/-- A column of the block, as the kernel computes it — the boards' one column laid along the lanes, the offsets' and the
    probabilities' one row laid down the rows, compare, select, a sum along the lanes, and the result cast back to a
    column — read at row `r`: the sum `hit`. -/
theorem kernelCol_apply {R : ℕ} (p : CmpFPredicate) (lit zero : EReal)
    (xc : FVec Ideal ⟨2, ![R, 1]⟩ .f32) (orow frow : FVec Ideal ⟨2, ![1, 21]⟩ .f32)
    (hb1 : (⟨2, ![R, 1]⟩ : Shape).Broadcasts ⟨2, ![R, 21]⟩) (hb2 : (⟨2, ![1, 21]⟩ : Shape).Broadcasts ⟨2, ![R, 21]⟩)
    (hs : (⟨2, ![1, 21]⟩ : Shape).ShapeCasts ⟨2, ![1, 21]⟩) (hred : (⟨2, ![R, 21]⟩ : Shape).Reduces [1] ⟨1, ![R]⟩)
    (hsc : (⟨1, ![R]⟩ : Shape).ShapeCasts ⟨2, ![R, 1]⟩) (hφ : FKind.Formats .f32)
    (hacc : (0x00000000#32 : BitVec 32) = FKind.add.neutral .f32 hφ) (r : Fin R) (u : Fin 1) :
    shapeCast ⟨2, ![R, 1]⟩ (multiReduction .add [1] ⟨1, ![R]⟩
      (select (cmpf p (addf (broadcastTo ⟨2, ![R, 21]⟩ xc hb1) (broadcastTo ⟨2, ![R, 21]⟩ (shapeCast ⟨2, ![1, 21]⟩ orow hs) hb2))
          (broadcast ⟨2, ![R, 21]⟩ lit))
        (broadcastTo ⟨2, ![R, 21]⟩ (shapeCast ⟨2, ![1, 21]⟩ (shapeCast ⟨2, ![1, 21]⟩ frow hs) hs) hb2)
        (broadcast ⟨2, ![R, 21]⟩ zero))
      0x00000000#32 hred hφ hacc) hsc (ix2 r u)
    = hit p lit zero (xc (ix2 r (0 : Fin 1))) (fun c => orow (ix2 (0 : Fin 1) c)) (fun c => frow (ix2 (0 : Fin 1) c)) := by
  rw [shapeCast_a_a1_apply, Ideal.multiReduction_add_single]
  unfold hit
  show (∑ c : Fin 21, _) = (∑ c : Fin 21, _)
  refine Finset.sum_congr rfl fun c _ => ?_
  rw [lift_row hred r c, select_apply, cmpf_apply, addf_apply, broadcast_apply, broadcast_apply,
    broadcastTo_a1_ab_apply, broadcastTo_1b_ab_apply, broadcastTo_1b_ab_apply, shapeCast_self, shapeCast_self, shapeCast_self]

/-! ## The two offset vectors

Both programs take them from the second argument by the same three host operations (a slice of one slot, the unit
axis dropped, a minimum or maximum over the 1024 candidate moves from the neutral infinity), so they are named here once,
at any float instance, and never opened: the two sides agree on them by being the same term. -/

section Offsets
variable {F : FTy → Type} [FloatOps F]

/-- Per combination, the least offset at slot 0 over the candidate moves. -/
def lo (h1 : (⟨3, ![21, 1024, 27]⟩ : Shape).Slices ![0, 0, 0] ⟨3, ![21, 1024, 1]⟩)
    (h2 : (⟨3, ![21, 1024, 1]⟩ : Shape).ShapeCasts ⟨2, ![21, 1024]⟩)
    (h3 : (⟨2, ![21, 1024]⟩ : Shape).ReducesTo [1] ⟨1, ![21]⟩) (h4 : 0 < (⟨0, ![]⟩ : Shape).numel)
    (d : FVec F ⟨3, ![21, 1024, 27]⟩ .f32) : FVec F ⟨1, ![21]⟩ .f32 :=
  Host.reduce FloatOps.minimumf (shapeCast ⟨2, ![21, 1024]⟩ (extractStridedSlice ⟨3, ![21, 1024, 1]⟩ ![0, 0, 0] d h1) h2)
    (constant ⟨0, ![]⟩ .f32 0x7F800000#32) h3 h4

/-- Per combination, the greatest offset at slot 25 over the candidate moves. -/
def hi (h1 : (⟨3, ![21, 1024, 27]⟩ : Shape).Slices ![0, 0, 25] ⟨3, ![21, 1024, 1]⟩)
    (h2 : (⟨3, ![21, 1024, 1]⟩ : Shape).ShapeCasts ⟨2, ![21, 1024]⟩)
    (h3 : (⟨2, ![21, 1024]⟩ : Shape).ReducesTo [1] ⟨1, ![21]⟩) (h4 : 0 < (⟨0, ![]⟩ : Shape).numel)
    (d : FVec F ⟨3, ![21, 1024, 27]⟩ .f32) : FVec F ⟨1, ![21]⟩ .f32 :=
  Host.reduce FloatOps.maximumf (shapeCast ⟨2, ![21, 1024]⟩ (extractStridedSlice ⟨3, ![21, 1024, 1]⟩ ![0, 0, 25] d h1) h2)
    (constant ⟨0, ![]⟩ .f32 0xFF800000#32) h3 h4

end Offsets

end Cert.HitSpec

end
-- ==== Proof.KernelValue.lean ====
/-
  What the kernel's result array holds after the run, at the ideal instance.

  The grid has 256 points; point t stages rows 2048·t … 2048·t + 2047 of the boards (all 27 slots) and, unmoved from
  point to point, the three one-row arrays over the 21 combinations that the host operations before the region made: the
  least offsets at slot 0, the greatest offsets at slot 25 and the probabilities. The body leaves in the output's block, at
  row p and column j, the sum `entry` of row p's slots 0 and 25 against those three rows; so what point t writes back is
  rows 2048·t … of the one function `G` of the arguments, and the 256 blocks tile the 524288 rows.
-/
import proofs.«121889_j10582799418093_1_alg».proof.Proof.Gen.KernelIdeal.Value
import proofs.«121889_j10582799418093_1_alg».proof.Proof.Spec
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.HitValue

open Cert.KernelIdeal Cert.KernelIdeal.Gen Cert.KernelIdeal.Value Cert.HitSpec

variable (m : (ℓ : Loc nD τ sig) → Buf (Elt Ideal) ℓ) (ρ : Dev nD → PrngReg)

/-! ## The three vectors over the combinations, as the region finds them -/

/-- The 21 probabilities of the dice combinations, as the literal table gives them. -/
def facs : FVec Ideal S21 .f32 := fun i => FloatOps.ofBits .f32 (lit0 (S21.rowMajor i))

/-- The least offset at slot 0, per combination. -/
abbrev lo (d : FVec Ideal S21x1024x27 .f32) : FVec Ideal S21 .f32 :=
  Cert.HitSpec.lo slices_S21x1024x27_S21x1024x1_0_0_0 shapeCasts_S21x1024x1_S21x1024 reducesTo_S21x1024_S21_d1 h_S_ d

/-- The greatest offset at slot 25, per combination. -/
abbrev hi (d : FVec Ideal S21x1024x27 .f32) : FVec Ideal S21 .f32 :=
  Cert.HitSpec.hi slices_S21x1024x27_S21x1024x1_0_0_25 shapeCasts_S21x1024x1_S21x1024 reducesTo_S21x1024_S21_d1 h_S_ d

open Idealize.ShloMosaic.StableHlo in
/-- The array window 1 stages is the least offsets as one row. -/
theorem V_lo (c : Dev nD) :
    (V m c main_v4 : S1x21.Idx → EReal) = shapeCast S1x21 (lo (m ((c : Thread nD τ).loc main_arg1))) shapeCasts_S21_S1x21 := by
  dsimp only [Gen.V, Gen.hostOps0]; after_results; rfl

open Idealize.ShloMosaic.StableHlo in
/-- The array window 2 stages is the greatest offsets as one row. -/
theorem V_hi (c : Dev nD) :
    (V m c main_v8 : S1x21.Idx → EReal) = shapeCast S1x21 (hi (m ((c : Thread nD τ).loc main_arg1))) shapeCasts_S21_S1x21 := by
  dsimp only [Gen.V, Gen.hostOps0]; after_results; rfl

open Idealize.ShloMosaic.StableHlo in
/-- The array window 3 stages is the probabilities as one row. -/
theorem V_fac (c : Dev nD) :
    (V m c main_v0 : S1x21.Idx → EReal) = shapeCast S1x21 facs shapeCasts_S21_S1x21 := by
  dsimp only [Gen.V, Gen.hostOps0]; after_results; rfl

/-! ## The windows' blocks as entries of the arrays -/

/-- The printed index maps, decided over the 256 points: the boards' and the output's block index is the point on the
    rows and zero on the columns; the three rows never move. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `q`, slot `k` of the boards' block at point `t` is row `2048·t + q` of the first argument. -/
theorem xblk_apply (c : Dev nD) (t : Fin cfg0.N) (q : Fin 2048) (k : Fin 27) (r : Fin 524288) (hr : r.val = t.val * 2048 + q.val) :
    iblk m c 0 t (ix2 q k) = m ((c : Thread nD τ).loc main_arg0) (ix2 r k) := by
  obtain ⟨e0, e1, -⟩ := idx_facts t
  show V m c main_arg0 (((cfg0.win 0).blk t).view.emb (ix2 q k)) = _
  rw [V_main_arg0]
  refine congrArg _ (funext fun a => Fin.ext ?_)
  match a with
  | ⟨0, _⟩ => show win0_0.index t (0 : Fin 2) * 2048 + 1 * q.val = r.val; omega
  | ⟨1, _⟩ => show win0_0.index t (1 : Fin 2) * 27 + 1 * k.val = k.val; omega

/-- The one-row block of window 1 at any point is the least offsets. -/
theorem loblk_apply (c : Dev nD) (t : Fin cfg0.N) (k : Fin 21) :
    iblk m c 1 t (ix2 (0 : Fin 1) k) = lo (m ((c : Thread nD τ).loc main_arg1)) (ix1 k) := by
  obtain ⟨-, -, e0, e1, -⟩ := idx_facts t
  show V m c main_v4 (((cfg0.win 1).blk t).view.emb (ix2 (0 : Fin 1) k)) = _
  have he : ((cfg0.win 1).blk t).view.emb (ix2 (0 : Fin 1) k) = ix2 (0 : Fin 1) k := funext fun a => Fin.ext (by
    match a with
    | ⟨0, _⟩ => show win0_1.index t (0 : Fin 2) * 1 + 1 * 0 = 0; omega
    | ⟨1, _⟩ => show win0_1.index t (1 : Fin 2) * 21 + 1 * k.val = k.val; omega)
  rw [he]
  exact (congrFun (V_lo m c) (ix2 (0 : Fin 1) k)).trans (shapeCast_a_1a_apply _ _ 0 k)

/-- The one-row block of window 2 at any point is the greatest offsets. -/
theorem hiblk_apply (c : Dev nD) (t : Fin cfg0.N) (k : Fin 21) :
    iblk m c 2 t (ix2 (0 : Fin 1) k) = hi (m ((c : Thread nD τ).loc main_arg1)) (ix1 k) := by
  obtain ⟨-, -, -, -, e0, e1, -⟩ := idx_facts t
  show V m c main_v8 (((cfg0.win 2).blk t).view.emb (ix2 (0 : Fin 1) k)) = _
  have he : ((cfg0.win 2).blk t).view.emb (ix2 (0 : Fin 1) k) = ix2 (0 : Fin 1) k := funext fun a => Fin.ext (by
    match a with
    | ⟨0, _⟩ => show win0_2.index t (0 : Fin 2) * 1 + 1 * 0 = 0; omega
    | ⟨1, _⟩ => show win0_2.index t (1 : Fin 2) * 21 + 1 * k.val = k.val; omega)
  rw [he]
  exact (congrFun (V_hi m c) (ix2 (0 : Fin 1) k)).trans (shapeCast_a_1a_apply _ _ 0 k)

/-- The one-row block of window 3 at any point is the probabilities. -/
theorem facblk_apply (c : Dev nD) (t : Fin cfg0.N) (k : Fin 21) :
    iblk m c 3 t (ix2 (0 : Fin 1) k) = facs (ix1 k) := by
  obtain ⟨-, -, -, -, -, -, e0, e1, -⟩ := idx_facts t
  show V m c main_v0 (((cfg0.win 3).blk t).view.emb (ix2 (0 : Fin 1) k)) = _
  have he : ((cfg0.win 3).blk t).view.emb (ix2 (0 : Fin 1) k) = ix2 (0 : Fin 1) k := funext fun a => Fin.ext (by
    match a with
    | ⟨0, _⟩ => show win0_3.index t (0 : Fin 2) * 1 + 1 * 0 = 0; omega
    | ⟨1, _⟩ => show win0_3.index t (1 : Fin 2) * 21 + 1 * k.val = k.val; omega)
  rw [he]
  exact (congrFun (V_fac m c) (ix2 (0 : Fin 1) k)).trans (shapeCast_a_1a_apply _ _ 0 k)

/-! ## What the body leaves in the output's block -/

theorem hz : (![0, 0] : Fin 2 → Nat) = fun _ => 0 := funext fun a => by fin_cases a <;> rfl

/-- The load of the block's slot-0 column reads slot 0. -/
theorem ld_col0 (x0 : Vec Ideal S2048x27 .f32) (p : Fin 2048) (u : Fin 1) :
    View.ld x0 r0_0 (ix2 p u) = x0 (ix2 p (0 : Fin 27)) := by
  show x0 (r0_0.idx (ix2 p u)) = _
  refine congrArg _ (funext fun a => Fin.ext ?_)
  match a with
  | ⟨0, _⟩ => show 0 + 1 * p.val = p.val; omega
  | ⟨1, _⟩ => show 0 + 1 * u.val = 0; omega

/-- The load of the block's slot-25 column reads slot 25. -/
theorem ld_col25 (x0 : Vec Ideal S2048x27 .f32) (p : Fin 2048) (u : Fin 1) :
    View.ld x0 r0_1 (ix2 p u) = x0 (ix2 p (25 : Fin 27)) := by
  show x0 (r0_1.idx (ix2 p u)) = _
  refine congrArg _ (funext fun a => Fin.ext ?_)
  match a with
  | ⟨0, _⟩ => show 0 + 1 * p.val = p.val; omega
  | ⟨1, _⟩ => show 25 + 1 * u.val = 25; omega

/-- The column index under entry `(p, j)` of the block is `(p, 0)`. -/
theorem ix4_0_ix2 (p : Fin 2048) (j : Fin 4) : ix4_0 (ix2 p j) = ix2 p (0 : Fin 1) :=
  funext fun a => Fin.ext (match a with | ⟨0, _⟩ => rfl | ⟨1, _⟩ => rfl)

/-- Entry `(p, j)` of what the body leaves in the output's block, over any contents of the four input blocks. -/
theorem out_apply (x0 : Vec Ideal S2048x27 .f32) (x1 x2 x3 : Vec Ideal S1x21 .f32) (p : Fin 2048) (j : Fin 4) :
    out0_4 x0 x1 x2 x3 (ix2 p j)
      = entry (x0 (ix2 p (0 : Fin 27))) (x0 (ix2 p (25 : Fin 27))) (fun c => x1 (ix2 (0 : Fin 1) c))
          (fun c => x2 (ix2 (0 : Fin 1) c)) (fun c => x3 (ix2 (0 : Fin 1) c)) j := by
  unfold out0_4
  rw [canon4_eq]
  show (Cat4_0 _ _ _ _ _ (csel4_0 (ix2 p j))) (ix4_0 (ix2 p j)) = _
  rw [ix4_0_ix2]
  simp only [View.ld_unit_zero (S := S1x21) hz]
  match j with
  | 0 => exact (kernelCol_apply .olt _ _ _ _ _ _ _ _ _ _ _ _ p 0).trans (by rw [ld_col0]; rfl)
  | 1 => exact (kernelCol_apply .oeq _ _ _ _ _ _ _ _ _ _ _ _ p 0).trans (by rw [ld_col0]; rfl)
  | 2 => exact (kernelCol_apply .oeq _ _ _ _ _ _ _ _ _ _ _ _ p 0).trans (by rw [ld_col25]; rfl)
  | 3 => exact (kernelCol_apply .ogt _ _ _ _ _ _ _ _ _ _ _ _ p 0).trans (by rw [ld_col25]; rfl)

/-- The same at any index of the block. -/
theorem out_apply' (x0 : Vec Ideal S2048x27 .f32) (x1 x2 x3 : Vec Ideal S1x21 .f32) (y : S2048x4.Idx) :
    out0_4 x0 x1 x2 x3 y
      = entry (x0 (ix2 (y 0 : Fin 2048) (0 : Fin 27))) (x0 (ix2 (y 0 : Fin 2048) (25 : Fin 27))) (fun c => x1 (ix2 (0 : Fin 1) c))
          (fun c => x2 (ix2 (0 : Fin 1) c)) (fun c => x3 (ix2 (0 : Fin 1) c)) (y 1 : Fin 4) := by
  obtain ⟨p, j, rfl⟩ : ∃ (p : Fin 2048) (j : Fin 4), y = ix2 p j := ⟨y 0, y 1, eq_ix2 y⟩
  exact out_apply x0 x1 x2 x3 p j

/-! ## From the blocks to the array -/

/-- The kernel's result array as one function of the arguments. -/
abbrev Gk (c : Dev nD) : S524288x4.Idx → EReal :=
  G (m ((c : Thread nD τ).loc main_arg0)) (lo (m ((c : Thread nD τ).loc main_arg1))) (hi (m ((c : Thread nD τ).loc main_arg1))) facs

/-- What point `t` writes back is block `t` of `Gk`. -/
theorem flushed_eq (c : Dev nD) (t : Fin cfg0.N) :
    (dats m 0 c).flushed 4 t = ((cfg0.win 4).blk t).view.read (Elt Ideal) (Gk m c) := by
  rw [Value.flushed4]
  funext y
  obtain ⟨-, -, -, -, -, -, -, -, e0, e1⟩ := idx_facts t
  have h0 : ((((cfg0.win 4).blk t).view.emb y) 0 : Fin 524288).val = t.val * 2048 + (y 0 : Fin 2048).val := by
    show win0_4.index t (0 : Fin 2) * 2048 + 1 * (y 0).val = _
    rw [e0]; omega
  have h1 : (y 1 : Fin 4) = ((((cfg0.win 4).blk t).view.emb y) 1 : Fin 4) := Fin.ext (by
    show (y 1).val = win0_4.index t (1 : Fin 2) * 4 + 1 * (y 1).val
    rw [e1]; omega)
  show out0_4 (iblk m c 0 t) (iblk m c 1 t) (iblk m c 2 t) (iblk m c 3 t) y = Gk m c (((cfg0.win 4).blk t).view.emb y)
  refine (out_apply' (iblk m c 0 t) (iblk m c 1 t) (iblk m c 2 t) (iblk m c 3 t) y).trans ?_
  exact entry_congr (xblk_apply m c t (y 0) 0 _ h0) (xblk_apply m c t (y 0) 25 _ h0) (fun k => loblk_apply m c t k)
    (fun k => hiblk_apply m c t k) (fun k => facblk_apply m c t k) h1

/-- An index of the array is in point `t`'s block iff each coordinate is in the block's range on its axis. -/
theorem mem_blk (t : Fin cfg0.N) (i : S524288x4.Idx) :
    i ∈ ((cfg0.win 4).blk t).view.set ↔ ∀ a : Fin 2, win0_4.index t a * S2048x4.size a ≤ (i a).val ∧ (i a).val < win0_4.index t a * S2048x4.size a + S2048x4.size a := by
  show i ∈ ((View.whole main_v9).slice (win0_4.rect t)).set ↔ _
  rw [View.set_slice_whole, Rect.mem_set_unit]
  exact Iff.rfl

/-- Row `r` of the array is in the block of point `r / 2048`: the blocks tile the rows. -/
theorem cover (i : S524288x4.Idx) : ∃ t : Fin cfg0.N, (cfg0.win 4).flush t = true ∧ i ∈ ((cfg0.win 4).blk t).view.set := by
  have hi0 : (i 0).val < 524288 := (i 0).isLt
  have hi1 : (i 1).val < 4 := (i 1).isLt
  have hN : (i 0).val / 2048 < cfg0.N := by show _ < grid0.N; rw [N_0]; omega
  refine ⟨⟨(i 0).val / 2048, hN⟩, flush0_4 _, ?_⟩
  obtain ⟨-, -, -, -, -, -, -, -, e0, e1⟩ := idx_facts ⟨(i 0).val / 2048, hN⟩
  rw [mem_blk]
  intro a
  match a with
  | ⟨0, _⟩ =>
    show win0_4.index ⟨(i 0).val / 2048, hN⟩ (0 : Fin 2) * 2048 ≤ (i 0).val ∧ (i 0).val < win0_4.index ⟨(i 0).val / 2048, hN⟩ (0 : Fin 2) * 2048 + 2048
    rw [e0]; show (i 0).val / 2048 * 2048 ≤ (i 0).val ∧ (i 0).val < (i 0).val / 2048 * 2048 + 2048; omega
  | ⟨1, _⟩ =>
    show win0_4.index ⟨(i 0).val / 2048, hN⟩ (1 : Fin 2) * 4 ≤ (i 1).val ∧ (i 1).val < win0_4.index ⟨(i 0).val / 2048, hN⟩ (1 : Fin 2) * 4 + 4
    rw [e1]; omega

/-- The output array after the run is `Gk`. -/
theorem final (c : Dev nD) : (dats m 0 c).arrAt 4 cfg0.N = Gk m c :=
  (dats m 0 c).arrAt_eq_of_cover 4 (Gk m c) (fun t _ => flushed_eq m c t) cover

/-- The run, with the result array named as the function of the arguments and the arguments unchanged. -/
theorem run : θ_run defs (onTc (τ := τ) (main (F := Ideal))) ⟨m, fun _ => 0, ρ⟩ fun r => ∀ c : Dev nD,
      r.2.mem ((c : Thread nD τ).loc main_v9) = Gk m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.HitValue

end
-- ==== Proof.RefRun.lean ====
/-
  The reference as a straight line of host operations, and what its result buffer holds afterwards.

  The reference prints as 53 operations of its own and four calls of the outlined `where` (three operations each: the
  probabilities' row broadcast down the boards, the zero broadcast to the same shape, the select). Listed in order with
  each call's three operations at its place, the program is one sequence of 65 host operations, and its result is a
  pure function of the two arguments: four columns, each a sum along the 21 combinations of a select between the
  probabilities and zero, set side by side.
-/
import proofs.«121889_j10582799418093_1_alg».proof.Proof.Gen.ReferenceIdeal
import proofs.«121889_j10582799418093_1_alg».proof.Proof.Spec
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-! ## The result as a function of the arguments -/

/-- The 21 probabilities of the dice combinations, as the literal table gives them. -/
def facs : FVec F S21 .f32 := fun i => FloatOps.ofBits .f32 (lit0 (S21.rowMajor i))

/-- The least offset at slot 0, per combination. -/
abbrev lo (d : FVec F S21x1024x27 .f32) : FVec F S21 .f32 :=
  Cert.HitSpec.lo slices_S21x1024x27_S21x1024x1_0_0_0 shapeCasts_S21x1024x1_S21x1024 reducesTo_S21x1024_S21_d1 h_S_ d

/-- The greatest offset at slot 25, per combination. -/
abbrev hi (d : FVec F S21x1024x27 .f32) : FVec F S21 .f32 :=
  Cert.HitSpec.hi slices_S21x1024x27_S21x1024x1_0_0_25 shapeCasts_S21x1024x1_S21x1024 reducesTo_S21x1024_S21_d1 h_S_ d

/-- Column `o` of the boards, laid along the 21 combinations. -/
def colAt0 (x : FVec F S524288x27 .f32) : FVec F S524288x21 .f32 :=
  broadcastInDim S524288x21 ![0, 1] bcast_S524288x1_S524288x21_0_1 (broadcastInDim S524288x1 ![0] bcast_S524288_S524288x1_0
    (shapeCast S524288 (extractStridedSlice S524288x1 ![0, 0] x slices_S524288x27_S524288x1_0_0) shapeCasts_S524288x1_S524288))

def colAt25 (x : FVec F S524288x27 .f32) : FVec F S524288x21 .f32 :=
  broadcastInDim S524288x21 ![0, 1] bcast_S524288x1_S524288x21_0_1 (broadcastInDim S524288x1 ![0] bcast_S524288_S524288x1_0
    (shapeCast S524288 (extractStridedSlice S524288x1 ![0, 25] x slices_S524288x27_S524288x1_0_25) shapeCasts_S524288x1_S524288))

/-- A vector over the combinations, laid along every board. -/
def rowOf (v : FVec F S21 .f32) : FVec F S524288x21 .f32 :=
  broadcastInDim S524288x21 ![0, 1] bcast_S1x21_S524288x21_0_1 (broadcastInDim S1x21 ![1] bcast_S21_S1x21_1 v)

/-- A constant at every board and combination. -/
def splat (w : BitVec 32) : FVec F S524288x21 .f32 :=
  broadcastInDim S524288x21 ![] bcast_S_S524288x21 (constant S_ .f32 w)

/-- One column of the result: where the shifted coordinate `s` stands in relation `p` to the threshold `w`, the
    combination's probability, else zero; summed along the combinations from an initial zero. -/
def column (p : CmpFPredicate) (w : BitVec 32) (s : FVec F S524288x21 .f32) : FVec F S524288x1 .f32 :=
  broadcastInDim S524288x1 ![0] bcast_S524288_S524288x1_0
    (Host.reduceAdd (select (cmpf p s (splat w)) (rowOf facs) (splat 0x00000000#32)) (constant S_ .f32 0x00000000#32)
      reducesTo_S524288x21_S524288_d1 h_S_)

/-- The reference's result: the four columns side by side. -/
def out (x : FVec F S524288x27 .f32) (d : FVec F S21x1024x27 .f32) : FVec F S524288x4 .f32 :=
  concatenate S524288x4 1
    [⟨S524288x1, column .olt 0xBF800000#32 (addf (colAt0 x) (rowOf (lo d)))⟩,
     ⟨S524288x1, column .oeq 0xBF800000#32 (addf (colAt0 x) (rowOf (lo d)))⟩,
     ⟨S524288x1, column .oeq 0x3F800000#32 (addf (colAt25 x) (rowOf (hi d)))⟩,
     ⟨S524288x1, column .ogt 0x3F800000#32 (addf (colAt25 x) (rowOf (hi d)))⟩]
    concatenates_S524288x1_S524288x1_S524288x1_S524288x1_S524288x4_d1

/-! ## The program as a list of operations -/

/-- The reference's operations in order, each call of the outlined `where` unfolded into its three at the call's place. -/
abbrev ops : List (HloOp τ sig (Elt F)) :=
  [ nullary main_cst (fun i => FloatOps.ofBits .f32 (lit0 (S21.rowMajor i))),
    unary main_arg1 main_v0 (extractStridedSlice S21x1024x1 ![0, 0, 0] · slices_S21x1024x27_S21x1024x1_0_0_0),
    reshape main_v0 main_v1 rfl shapeCasts_S21x1024x1_S21x1024,
    nullary main_cst_0 (constant S_ .f32 0x7F800000#32),
    binary main_v1 main_cst_0 main_v2 (fun x v => Host.reduce FloatOps.minimumf x v reducesTo_S21x1024_S21_d1 h_S_),
    unary main_arg1 main_v3 (extractStridedSlice S21x1024x1 ![0, 0, 25] · slices_S21x1024x27_S21x1024x1_0_0_25),
    reshape main_v3 main_v4 rfl shapeCasts_S21x1024x1_S21x1024,
    nullary main_cst_1 (constant S_ .f32 0xFF800000#32),
    binary main_v4 main_cst_1 main_v5 (fun x v => Host.reduce FloatOps.maximumf x v reducesTo_S21x1024_S21_d1 h_S_),
    unary main_arg0 main_v6 (extractStridedSlice S524288x1 ![0, 0] · slices_S524288x27_S524288x1_0_0),
    reshape main_v6 main_v7 rfl shapeCasts_S524288x1_S524288,
    unary main_v7 main_v8 (broadcastInDim S524288x1 ![0] bcast_S524288_S524288x1_0),
    unary main_v2 main_v9 (broadcastInDim S1x21 ![1] bcast_S21_S1x21_1),
    unary main_v8 main_v10 (broadcastInDim S524288x21 ![0, 1] bcast_S524288x1_S524288x21_0_1),
    unary main_v9 main_v11 (broadcastInDim S524288x21 ![0, 1] bcast_S1x21_S524288x21_0_1),
    binary main_v10 main_v11 main_v12 addf,
    unary main_arg0 main_v13 (extractStridedSlice S524288x1 ![0, 25] · slices_S524288x27_S524288x1_0_25),
    reshape main_v13 main_v14 rfl shapeCasts_S524288x1_S524288,
    unary main_v14 main_v15 (broadcastInDim S524288x1 ![0] bcast_S524288_S524288x1_0),
    unary main_v5 main_v16 (broadcastInDim S1x21 ![1] bcast_S21_S1x21_1),
    unary main_v15 main_v17 (broadcastInDim S524288x21 ![0, 1] bcast_S524288x1_S524288x21_0_1),
    unary main_v16 main_v18 (broadcastInDim S524288x21 ![0, 1] bcast_S1x21_S524288x21_0_1),
    binary main_v17 main_v18 main_v19 addf,
    unary main_cst main_v20 (broadcastInDim S1x21 ![1] bcast_S21_S1x21_1),
    nullary main_cst_2 (constant S_ .f32 0xBF800000#32),
    unary main_cst_2 main_v21 (broadcastInDim S524288x21 ![] bcast_S_S524288x21),
    binary main_v12 main_v21 main_v22 (cmpf (F := F) .olt),
    nullary main_cst_3 (constant S_ .f32 0x00000000#32),
    TRef.unary (Tx := ⟨S1x21, .f32⟩) (.of main_v20) main_call0.v0 (broadcastInDim S524288x21 ![0, 1] bcast_S1x21_S524288x21_0_1),
    TRef.unary (Tx := ⟨S_, .f32⟩) (.of main_cst_3) main_call0.v1 (broadcastInDim S524288x21 ![] bcast_S_S524288x21),
    TRef.ternary (Tc := ⟨S524288x21, .i1⟩) (.of main_v22) main_call0.v0 main_call0.v1 main_call0.v2 select,
    nullary main_cst_4 (constant S_ .f32 0x00000000#32),
    binary main_v23 main_cst_4 main_v24 (fun x v => Host.reduceAdd x v reducesTo_S524288x21_S524288_d1 h_S_),
    nullary main_cst_5 (constant S_ .f32 0xBF800000#32),
    unary main_cst_5 main_v25 (broadcastInDim S524288x21 ![] bcast_S_S524288x21),
    binary main_v12 main_v25 main_v26 (cmpf (F := F) .oeq),
    nullary main_cst_6 (constant S_ .f32 0x00000000#32),
    TRef.unary (Tx := ⟨S1x21, .f32⟩) (.of main_v20) main_call1.v0 (broadcastInDim S524288x21 ![0, 1] bcast_S1x21_S524288x21_0_1),
    TRef.unary (Tx := ⟨S_, .f32⟩) (.of main_cst_6) main_call1.v1 (broadcastInDim S524288x21 ![] bcast_S_S524288x21),
    TRef.ternary (Tc := ⟨S524288x21, .i1⟩) (.of main_v26) main_call1.v0 main_call1.v1 main_call1.v2 select,
    nullary main_cst_7 (constant S_ .f32 0x00000000#32),
    binary main_v27 main_cst_7 main_v28 (fun x v => Host.reduceAdd x v reducesTo_S524288x21_S524288_d1 h_S_),
    nullary main_cst_8 (constant S_ .f32 0x3F800000#32),
    unary main_cst_8 main_v29 (broadcastInDim S524288x21 ![] bcast_S_S524288x21),
    binary main_v19 main_v29 main_v30 (cmpf (F := F) .oeq),
    nullary main_cst_9 (constant S_ .f32 0x00000000#32),
    TRef.unary (Tx := ⟨S1x21, .f32⟩) (.of main_v20) main_call2.v0 (broadcastInDim S524288x21 ![0, 1] bcast_S1x21_S524288x21_0_1),
    TRef.unary (Tx := ⟨S_, .f32⟩) (.of main_cst_9) main_call2.v1 (broadcastInDim S524288x21 ![] bcast_S_S524288x21),
    TRef.ternary (Tc := ⟨S524288x21, .i1⟩) (.of main_v30) main_call2.v0 main_call2.v1 main_call2.v2 select,
    nullary main_cst_10 (constant S_ .f32 0x00000000#32),
    binary main_v31 main_cst_10 main_v32 (fun x v => Host.reduceAdd x v reducesTo_S524288x21_S524288_d1 h_S_),
    nullary main_cst_11 (constant S_ .f32 0x3F800000#32),
    unary main_cst_11 main_v33 (broadcastInDim S524288x21 ![] bcast_S_S524288x21),
    binary main_v19 main_v33 main_v34 (cmpf (F := F) .ogt),
    nullary main_cst_12 (constant S_ .f32 0x00000000#32),
    TRef.unary (Tx := ⟨S1x21, .f32⟩) (.of main_v20) main_call3.v0 (broadcastInDim S524288x21 ![0, 1] bcast_S1x21_S524288x21_0_1),
    TRef.unary (Tx := ⟨S_, .f32⟩) (.of main_cst_12) main_call3.v1 (broadcastInDim S524288x21 ![] bcast_S_S524288x21),
    TRef.ternary (Tc := ⟨S524288x21, .i1⟩) (.of main_v34) main_call3.v0 main_call3.v1 main_call3.v2 select,
    nullary main_cst_13 (constant S_ .f32 0x00000000#32),
    binary main_v35 main_cst_13 main_v36 (fun x v => Host.reduceAdd x v reducesTo_S524288x21_S524288_d1 h_S_),
    unary main_v24 main_v37 (broadcastInDim S524288x1 ![0] bcast_S524288_S524288x1_0),
    unary main_v28 main_v38 (broadcastInDim S524288x1 ![0] bcast_S524288_S524288x1_0),
    unary main_v32 main_v39 (broadcastInDim S524288x1 ![0] bcast_S524288_S524288x1_0),
    unary main_v36 main_v40 (broadcastInDim S524288x1 ![0] bcast_S524288_S524288x1_0),
    nary ![main_v37, main_v38, main_v39, main_v40] main_v41 (fun u => concatenate S524288x4 1 [⟨S524288x1, u 0⟩, ⟨S524288x1, u 1⟩, ⟨S524288x1, u 2⟩, ⟨S524288x1, u 3⟩] concatenates_S524288x1_S524288x1_S524288x1_S524288x1_S524288x4_d1) ]

set_option maxRecDepth 4096 in
/-- The printed program is that sequence: the callee's body unfolded at its four calls and sequencing reassociated. -/
theorem main_eq (c : Dev nD) : main (F := F) c = seq ops := by
  simp only [main, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches references of the core only. -/
theorem ops_sub : (ops : List (HloOp τ sig (Elt F))).Forall fun op => op.bufs ⊆ tcRefs τ sig :=
  ⟨nullary_bufs_sub .., unary_bufs_sub .., reshape_bufs_sub .., nullary_bufs_sub .., binary_bufs_sub ..,
    unary_bufs_sub .., reshape_bufs_sub .., nullary_bufs_sub .., binary_bufs_sub ..,
    unary_bufs_sub .., reshape_bufs_sub .., unary_bufs_sub .., unary_bufs_sub .., unary_bufs_sub .., unary_bufs_sub .., binary_bufs_sub ..,
    unary_bufs_sub .., reshape_bufs_sub .., unary_bufs_sub .., unary_bufs_sub .., unary_bufs_sub .., unary_bufs_sub .., binary_bufs_sub ..,
    unary_bufs_sub .., nullary_bufs_sub .., unary_bufs_sub .., binary_bufs_sub .., nullary_bufs_sub ..,
    unary_bufs_sub .., unary_bufs_sub .., ternary_bufs_sub .., nullary_bufs_sub .., binary_bufs_sub ..,
    nullary_bufs_sub .., unary_bufs_sub .., binary_bufs_sub .., nullary_bufs_sub ..,
    unary_bufs_sub .., unary_bufs_sub .., ternary_bufs_sub .., nullary_bufs_sub .., binary_bufs_sub ..,
    nullary_bufs_sub .., unary_bufs_sub .., binary_bufs_sub .., nullary_bufs_sub ..,
    unary_bufs_sub .., unary_bufs_sub .., ternary_bufs_sub .., nullary_bufs_sub .., binary_bufs_sub ..,
    nullary_bufs_sub .., unary_bufs_sub .., binary_bufs_sub .., nullary_bufs_sub ..,
    unary_bufs_sub .., unary_bufs_sub .., ternary_bufs_sub .., nullary_bufs_sub .., binary_bufs_sub ..,
    unary_bufs_sub .., unary_bufs_sub .., unary_bufs_sub .., unary_bufs_sub .., nary_bufs_sub ..⟩

/-! ## The run, stretch by stretch

The sequence is read in six stretches, each over ANY contents `W` of the buffers before it, so that no stretch's reading
carries the ones before it: the stretch that makes the two shifted coordinates and the probabilities' row from the
arguments; one stretch per column (compare, select against the probabilities laid down the boards, sum); the four
columns' casts and their concatenation. -/

/-- From the arguments: the two offset vectors, the boards' two slots shifted by them, and the probabilities as one row. -/
abbrev opsA : List (HloOp τ sig (Elt F)) :=
  [ nullary main_cst (fun i => FloatOps.ofBits .f32 (lit0 (S21.rowMajor i))),
    unary main_arg1 main_v0 (extractStridedSlice S21x1024x1 ![0, 0, 0] · slices_S21x1024x27_S21x1024x1_0_0_0),
    reshape main_v0 main_v1 rfl shapeCasts_S21x1024x1_S21x1024,
    nullary main_cst_0 (constant S_ .f32 0x7F800000#32),
    binary main_v1 main_cst_0 main_v2 (fun x v => Host.reduce FloatOps.minimumf x v reducesTo_S21x1024_S21_d1 h_S_),
    unary main_arg1 main_v3 (extractStridedSlice S21x1024x1 ![0, 0, 25] · slices_S21x1024x27_S21x1024x1_0_0_25),
    reshape main_v3 main_v4 rfl shapeCasts_S21x1024x1_S21x1024,
    nullary main_cst_1 (constant S_ .f32 0xFF800000#32),
    binary main_v4 main_cst_1 main_v5 (fun x v => Host.reduce FloatOps.maximumf x v reducesTo_S21x1024_S21_d1 h_S_),
    unary main_arg0 main_v6 (extractStridedSlice S524288x1 ![0, 0] · slices_S524288x27_S524288x1_0_0),
    reshape main_v6 main_v7 rfl shapeCasts_S524288x1_S524288,
    unary main_v7 main_v8 (broadcastInDim S524288x1 ![0] bcast_S524288_S524288x1_0),
    unary main_v2 main_v9 (broadcastInDim S1x21 ![1] bcast_S21_S1x21_1),
    unary main_v8 main_v10 (broadcastInDim S524288x21 ![0, 1] bcast_S524288x1_S524288x21_0_1),
    unary main_v9 main_v11 (broadcastInDim S524288x21 ![0, 1] bcast_S1x21_S524288x21_0_1),
    binary main_v10 main_v11 main_v12 addf,
    unary main_arg0 main_v13 (extractStridedSlice S524288x1 ![0, 25] · slices_S524288x27_S524288x1_0_25),
    reshape main_v13 main_v14 rfl shapeCasts_S524288x1_S524288,
    unary main_v14 main_v15 (broadcastInDim S524288x1 ![0] bcast_S524288_S524288x1_0),
    unary main_v5 main_v16 (broadcastInDim S1x21 ![1] bcast_S21_S1x21_1),
    unary main_v15 main_v17 (broadcastInDim S524288x21 ![0, 1] bcast_S524288x1_S524288x21_0_1),
    unary main_v16 main_v18 (broadcastInDim S524288x21 ![0, 1] bcast_S1x21_S524288x21_0_1),
    binary main_v17 main_v18 main_v19 addf,
    unary main_cst main_v20 (broadcastInDim S1x21 ![1] bcast_S21_S1x21_1) ]

/-- Column 0: below the threshold -1. -/
abbrev opsB0 : List (HloOp τ sig (Elt F)) :=
  [ nullary main_cst_2 (constant S_ .f32 0xBF800000#32),
    unary main_cst_2 main_v21 (broadcastInDim S524288x21 ![] bcast_S_S524288x21),
    binary main_v12 main_v21 main_v22 (cmpf (F := F) .olt),
    nullary main_cst_3 (constant S_ .f32 0x00000000#32),
    TRef.unary (Tx := ⟨S1x21, .f32⟩) (.of main_v20) main_call0.v0 (broadcastInDim S524288x21 ![0, 1] bcast_S1x21_S524288x21_0_1),
    TRef.unary (Tx := ⟨S_, .f32⟩) (.of main_cst_3) main_call0.v1 (broadcastInDim S524288x21 ![] bcast_S_S524288x21),
    TRef.ternary (Tc := ⟨S524288x21, .i1⟩) (.of main_v22) main_call0.v0 main_call0.v1 main_call0.v2 select,
    nullary main_cst_4 (constant S_ .f32 0x00000000#32),
    binary main_v23 main_cst_4 main_v24 (fun x v => Host.reduceAdd x v reducesTo_S524288x21_S524288_d1 h_S_) ]

/-- Column 1: at the threshold -1. -/
abbrev opsB1 : List (HloOp τ sig (Elt F)) :=
  [ nullary main_cst_5 (constant S_ .f32 0xBF800000#32),
    unary main_cst_5 main_v25 (broadcastInDim S524288x21 ![] bcast_S_S524288x21),
    binary main_v12 main_v25 main_v26 (cmpf (F := F) .oeq),
    nullary main_cst_6 (constant S_ .f32 0x00000000#32),
    TRef.unary (Tx := ⟨S1x21, .f32⟩) (.of main_v20) main_call1.v0 (broadcastInDim S524288x21 ![0, 1] bcast_S1x21_S524288x21_0_1),
    TRef.unary (Tx := ⟨S_, .f32⟩) (.of main_cst_6) main_call1.v1 (broadcastInDim S524288x21 ![] bcast_S_S524288x21),
    TRef.ternary (Tc := ⟨S524288x21, .i1⟩) (.of main_v26) main_call1.v0 main_call1.v1 main_call1.v2 select,
    nullary main_cst_7 (constant S_ .f32 0x00000000#32),
    binary main_v27 main_cst_7 main_v28 (fun x v => Host.reduceAdd x v reducesTo_S524288x21_S524288_d1 h_S_) ]

/-- Column 2: at the threshold 1. -/
abbrev opsB2 : List (HloOp τ sig (Elt F)) :=
  [ nullary main_cst_8 (constant S_ .f32 0x3F800000#32),
    unary main_cst_8 main_v29 (broadcastInDim S524288x21 ![] bcast_S_S524288x21),
    binary main_v19 main_v29 main_v30 (cmpf (F := F) .oeq),
    nullary main_cst_9 (constant S_ .f32 0x00000000#32),
    TRef.unary (Tx := ⟨S1x21, .f32⟩) (.of main_v20) main_call2.v0 (broadcastInDim S524288x21 ![0, 1] bcast_S1x21_S524288x21_0_1),
    TRef.unary (Tx := ⟨S_, .f32⟩) (.of main_cst_9) main_call2.v1 (broadcastInDim S524288x21 ![] bcast_S_S524288x21),
    TRef.ternary (Tc := ⟨S524288x21, .i1⟩) (.of main_v30) main_call2.v0 main_call2.v1 main_call2.v2 select,
    nullary main_cst_10 (constant S_ .f32 0x00000000#32),
    binary main_v31 main_cst_10 main_v32 (fun x v => Host.reduceAdd x v reducesTo_S524288x21_S524288_d1 h_S_) ]

/-- Column 3: above the threshold 1. -/
abbrev opsB3 : List (HloOp τ sig (Elt F)) :=
  [ nullary main_cst_11 (constant S_ .f32 0x3F800000#32),
    unary main_cst_11 main_v33 (broadcastInDim S524288x21 ![] bcast_S_S524288x21),
    binary main_v19 main_v33 main_v34 (cmpf (F := F) .ogt),
    nullary main_cst_12 (constant S_ .f32 0x00000000#32),
    TRef.unary (Tx := ⟨S1x21, .f32⟩) (.of main_v20) main_call3.v0 (broadcastInDim S524288x21 ![0, 1] bcast_S1x21_S524288x21_0_1),
    TRef.unary (Tx := ⟨S_, .f32⟩) (.of main_cst_12) main_call3.v1 (broadcastInDim S524288x21 ![] bcast_S_S524288x21),
    TRef.ternary (Tc := ⟨S524288x21, .i1⟩) (.of main_v34) main_call3.v0 main_call3.v1 main_call3.v2 select,
    nullary main_cst_13 (constant S_ .f32 0x00000000#32),
    binary main_v35 main_cst_13 main_v36 (fun x v => Host.reduceAdd x v reducesTo_S524288x21_S524288_d1 h_S_) ]

/-- The four sums as columns, side by side. -/
abbrev opsC : List (HloOp τ sig (Elt F)) :=
  [ unary main_v24 main_v37 (broadcastInDim S524288x1 ![0] bcast_S524288_S524288x1_0),
    unary main_v28 main_v38 (broadcastInDim S524288x1 ![0] bcast_S524288_S524288x1_0),
    unary main_v32 main_v39 (broadcastInDim S524288x1 ![0] bcast_S524288_S524288x1_0),
    unary main_v36 main_v40 (broadcastInDim S524288x1 ![0] bcast_S524288_S524288x1_0),
    nary ![main_v37, main_v38, main_v39, main_v40] main_v41 (fun u => concatenate S524288x4 1 [⟨S524288x1, u 0⟩, ⟨S524288x1, u 1⟩, ⟨S524288x1, u 2⟩, ⟨S524288x1, u 3⟩] concatenates_S524288x1_S524288x1_S524288x1_S524288x1_S524288x4_d1) ]

/-- The sequence is its six stretches in order. -/
theorem ops_eq : (ops : List (HloOp τ sig (Elt F))) = opsA ++ (opsB0 ++ (opsB1 ++ (opsB2 ++ (opsB3 ++ opsC)))) := rfl

/-- Running two stretches one after the other. -/
theorem after_append (l₁ l₂ : List (HloOp τ sig (Elt F))) (W : Valuation τ sig (Elt F)) :
    after (l₁ ++ l₂) W = after l₂ (after l₁ W) := by
  induction l₁ generalizing W with
  | nil => rfl
  | cons op l ih => simp only [List.cons_append, after_cons, ih]

section Stretches
variable (W : Valuation τ sig (Elt F))

/-! ### The first stretch -/

theorem A_v12 : after opsA W (Proc.devRef .tc main_v12)
    = addf (colAt0 (W (Proc.devRef .tc main_arg0))) (rowOf (lo (W (Proc.devRef .tc main_arg1)))) := by
  after_results; rfl
theorem A_v19 : after opsA W (Proc.devRef .tc main_v19)
    = addf (colAt25 (W (Proc.devRef .tc main_arg0))) (rowOf (hi (W (Proc.devRef .tc main_arg1)))) := by
  after_results; rfl
theorem A_v20 : after opsA W (Proc.devRef .tc main_v20) = broadcastInDim S1x21 ![1] bcast_S21_S1x21_1 (facs (F := F)) := by
  after_results; rfl
theorem A_arg0 : after opsA W (Proc.devRef .tc main_arg0) = W (Proc.devRef .tc main_arg0) := by after_results
theorem A_arg1 : after opsA W (Proc.devRef .tc main_arg1) = W (Proc.devRef .tc main_arg1) := by after_results

/-! ### The four columns -/

/-- A column's sum before its cast to a column, from the shifted coordinate `s` and the probabilities' row `f`. -/
def colSum (p : CmpFPredicate) (w : BitVec 32) (s : FVec F S524288x21 .f32) (f : FVec F S1x21 .f32) : FVec F S524288 .f32 :=
  Host.reduceAdd (select (cmpf p s (splat w)) (broadcastInDim S524288x21 ![0, 1] bcast_S1x21_S524288x21_0_1 f) (splat 0x00000000#32))
    (constant S_ .f32 0x00000000#32) reducesTo_S524288x21_S524288_d1 h_S_

theorem B0_v24 : after opsB0 W (Proc.devRef .tc main_v24)
    = colSum .olt 0xBF800000#32 (W (Proc.devRef .tc main_v12)) (W (Proc.devRef .tc main_v20)) := by
  after_results; rfl
theorem B0_v12 : after opsB0 W (Proc.devRef .tc main_v12) = W (Proc.devRef .tc main_v12) := by after_results
theorem B0_v19 : after opsB0 W (Proc.devRef .tc main_v19) = W (Proc.devRef .tc main_v19) := by after_results
theorem B0_v20 : after opsB0 W (Proc.devRef .tc main_v20) = W (Proc.devRef .tc main_v20) := by after_results
theorem B0_arg0 : after opsB0 W (Proc.devRef .tc main_arg0) = W (Proc.devRef .tc main_arg0) := by after_results
theorem B0_arg1 : after opsB0 W (Proc.devRef .tc main_arg1) = W (Proc.devRef .tc main_arg1) := by after_results

theorem B1_v28 : after opsB1 W (Proc.devRef .tc main_v28)
    = colSum .oeq 0xBF800000#32 (W (Proc.devRef .tc main_v12)) (W (Proc.devRef .tc main_v20)) := by
  after_results; rfl
theorem B1_v24 : after opsB1 W (Proc.devRef .tc main_v24) = W (Proc.devRef .tc main_v24) := by after_results
theorem B1_v19 : after opsB1 W (Proc.devRef .tc main_v19) = W (Proc.devRef .tc main_v19) := by after_results
theorem B1_v20 : after opsB1 W (Proc.devRef .tc main_v20) = W (Proc.devRef .tc main_v20) := by after_results
theorem B1_arg0 : after opsB1 W (Proc.devRef .tc main_arg0) = W (Proc.devRef .tc main_arg0) := by after_results
theorem B1_arg1 : after opsB1 W (Proc.devRef .tc main_arg1) = W (Proc.devRef .tc main_arg1) := by after_results

theorem B2_v32 : after opsB2 W (Proc.devRef .tc main_v32)
    = colSum .oeq 0x3F800000#32 (W (Proc.devRef .tc main_v19)) (W (Proc.devRef .tc main_v20)) := by
  after_results; rfl
theorem B2_v24 : after opsB2 W (Proc.devRef .tc main_v24) = W (Proc.devRef .tc main_v24) := by after_results
theorem B2_v28 : after opsB2 W (Proc.devRef .tc main_v28) = W (Proc.devRef .tc main_v28) := by after_results
theorem B2_v19 : after opsB2 W (Proc.devRef .tc main_v19) = W (Proc.devRef .tc main_v19) := by after_results
theorem B2_v20 : after opsB2 W (Proc.devRef .tc main_v20) = W (Proc.devRef .tc main_v20) := by after_results
theorem B2_arg0 : after opsB2 W (Proc.devRef .tc main_arg0) = W (Proc.devRef .tc main_arg0) := by after_results
theorem B2_arg1 : after opsB2 W (Proc.devRef .tc main_arg1) = W (Proc.devRef .tc main_arg1) := by after_results

theorem B3_v36 : after opsB3 W (Proc.devRef .tc main_v36)
    = colSum .ogt 0x3F800000#32 (W (Proc.devRef .tc main_v19)) (W (Proc.devRef .tc main_v20)) := by
  after_results; rfl
theorem B3_v24 : after opsB3 W (Proc.devRef .tc main_v24) = W (Proc.devRef .tc main_v24) := by after_results
theorem B3_v28 : after opsB3 W (Proc.devRef .tc main_v28) = W (Proc.devRef .tc main_v28) := by after_results
theorem B3_v32 : after opsB3 W (Proc.devRef .tc main_v32) = W (Proc.devRef .tc main_v32) := by after_results
theorem B3_arg0 : after opsB3 W (Proc.devRef .tc main_arg0) = W (Proc.devRef .tc main_arg0) := by after_results
theorem B3_arg1 : after opsB3 W (Proc.devRef .tc main_arg1) = W (Proc.devRef .tc main_arg1) := by after_results

/-! ### The last stretch -/

theorem C_v41 : after opsC W (Proc.devRef .tc main_v41)
    = concatenate S524288x4 1
        [⟨S524288x1, broadcastInDim S524288x1 ![0] bcast_S524288_S524288x1_0 (W (Proc.devRef .tc main_v24))⟩,
         ⟨S524288x1, broadcastInDim S524288x1 ![0] bcast_S524288_S524288x1_0 (W (Proc.devRef .tc main_v28))⟩,
         ⟨S524288x1, broadcastInDim S524288x1 ![0] bcast_S524288_S524288x1_0 (W (Proc.devRef .tc main_v32))⟩,
         ⟨S524288x1, broadcastInDim S524288x1 ![0] bcast_S524288_S524288x1_0 (W (Proc.devRef .tc main_v36))⟩]
        concatenates_S524288x1_S524288x1_S524288x1_S524288x1_S524288x4_d1 := by
  simp only [after_cons, after_nil]
  rw [nary4_result]
  repeat (first
    | rw [unary_result]
    | (rw [unary_result_ne]; rotate_left; decide))
  rfl
theorem C_arg0 : after opsC W (Proc.devRef .tc main_arg0) = W (Proc.devRef .tc main_arg0) := by after_results
theorem C_arg1 : after opsC W (Proc.devRef .tc main_arg1) = W (Proc.devRef .tc main_arg1) := by after_results

end Stretches

/-! ## The run -/

/-- After the operations, the result buffer holds `out` of the two arguments' contents. -/
theorem out_eq (V : Valuation τ sig (Elt F)) :
    after ops V (Proc.devRef .tc main_v41) = out (V (Proc.devRef .tc main_arg0)) (V (Proc.devRef .tc main_arg1)) := by
  rw [ops_eq]
  simp only [after_append]
  rw [C_v41, B3_v36, B3_v24, B3_v28, B3_v32, B2_v32, B2_v24, B2_v28, B2_v19, B2_v20, B1_v28, B1_v24, B1_v19, B1_v20,
    B0_v24, B0_v12, B0_v19, B0_v20, A_v12, A_v19, A_v20]
  rfl

/-- No operation writes the first argument. -/
theorem arg0_eq (V : Valuation τ sig (Elt F)) : after ops V (Proc.devRef .tc main_arg0) = V (Proc.devRef .tc main_arg0) := by
  rw [ops_eq]
  simp only [after_append]
  rw [C_arg0, B3_arg0, B2_arg0, B1_arg0, B0_arg0, A_arg0]

/-- No operation writes the second argument. -/
theorem arg1_eq (V : Valuation τ sig (Elt F)) : after ops V (Proc.devRef .tc main_arg1) = V (Proc.devRef .tc main_arg1) := by
  rw [ops_eq]
  simp only [after_append]
  rw [C_arg1, B3_arg1, B2_arg1, B1_arg1, B0_arg1, A_arg1]
/-- From any memory with zero counters every weakly fair execution of the reference terminates, the result buffer at
    `out` of the arguments as launched and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v41) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v41).trans (out_eq _), (h c main_arg0).trans (arg0_eq _), (h c main_arg1).trans (arg1_eq _)⟩)
    (run_seq scopedRefs_eq scopedSems_eq defs main (fun _ => ops) main_eq (fun _ => ops_sub) m ρ)

end Cert.ReferenceIdeal.HostRun

end
-- ==== Proof.RefValue.lean ====
/-
  The reference's result at an index, at the ideal instance: entry (r, j) is the sum `entry` of board r's slots 0 and 25
  against the two offset vectors and the probabilities, so the result is the function `G` of the arguments.

  Each host operation is read at an index: a slice of one slot and its cast to a vector read the slot; a broadcast of a
  vector to one column and of a column along the combinations read the vector's entry; a broadcast of a vector to one row
  and of that row down the boards read the vector's entry; a scalar's broadcast reads the scalar; the reduce is its
  initial zero plus the sum along the combinations, and `0 + s = s`; the concatenation reads the column the index names.
-/
import proofs.«121889_j10582799418093_1_alg».proof.Proof.RefRun
import proofs.«121889_j10582799418093_1_alg».proof.Proof.Spec
import Idealize.ShloMosaic.Lib.IdealHost
import Idealize.ShloMosaic.Lib.ValueLayout
import Idealize.ShloMosaic.Lib.KernelVsHost

noncomputable section

namespace Cert.ReferenceIdeal.HostValue

open Cert.ReferenceIdeal Cert.ReferenceIdeal.Gen Cert.ReferenceIdeal.HostRun Cert.HitSpec
open Idealize.ShloMosaic Idealize.ShloMosaic.ValueIdx

/-- Slot 0 of the boards, laid along the combinations, reads slot 0 of the board. -/
theorem colAt0_apply (x : FVec Ideal S524288x27 .f32) (r : Fin 524288) (c : Fin 21) :
    colAt0 x (ix2 r c) = x (ix2 r (0 : Fin 27)) := by
  unfold colAt0
  refine (broadcastInDim_a1_ab_apply _ _ r c).trans ?_
  refine (broadcastInDim_a_a1_apply _ _ r 0).trans ?_
  refine (shapeCast_a1_a_apply _ _ r).trans ?_
  exact slice2_axis1_apply 0 x _ r 0 0 rfl

/-- Slot 25 of the boards, laid along the combinations, reads slot 25 of the board. -/
theorem colAt25_apply (x : FVec Ideal S524288x27 .f32) (r : Fin 524288) (c : Fin 21) :
    colAt25 x (ix2 r c) = x (ix2 r (25 : Fin 27)) := by
  unfold colAt25
  refine (broadcastInDim_a1_ab_apply _ _ r c).trans ?_
  refine (broadcastInDim_a_a1_apply _ _ r 0).trans ?_
  refine (shapeCast_a1_a_apply _ _ r).trans ?_
  exact slice2_axis1_apply 25 x _ r 0 25 rfl

/-- A vector over the combinations laid along every board reads its entry. -/
theorem rowOf_apply (v : FVec Ideal S21 .f32) (r : Fin 524288) (c : Fin 21) : rowOf v (ix2 r c) = v (ix1 c) := by
  unfold rowOf
  exact (broadcastInDim_oneRow_apply _ _ r c).trans (broadcastInDim_b_1b_apply _ _ 0 c)

/-- A constant at every board and combination reads the constant. -/
theorem splat_apply (w : BitVec 32) (r : Fin 524288) (c : Fin 21) :
    splat (F := Ideal) w (ix2 r c) = Ideal.ofBits .f32 w := by
  unfold splat
  exact broadcastInDim_scalar_apply _ _ _

/-- One column of the result at board `r`: the sum `hit` of the board's shifted coordinates. -/
theorem column_apply (p : CmpFPredicate) (w : BitVec 32) (s : FVec Ideal S524288x21 .f32) (r : Fin 524288) (u : Fin 1) :
    column p w s (ix2 r u)
      = ∑ c : Fin 21, Scalar.select (FloatOps.cmpf (F := Ideal) (φ := .f32) p (s (ix2 r c)) (Ideal.ofBits .f32 w))
          (facs (F := Ideal) (ix1 c)) (Ideal.ofBits .f32 0x00000000#32) := by
  have h0 : constant (F := Ideal) S_ .f32 0x00000000#32 (Shape.Idx.first h_S_) = (0 : EReal) := Ideal.ofBits_zero_f32
  unfold column
  refine (broadcastInDim_a_a1_apply _ _ r u).trans ?_
  refine (hostReduceAdd_apply _ _ _ _ _).trans ?_
  rw [Ideal.hostReduceAdd_single reducesTo_S524288x21_S524288_d1 (by decide), h0, zero_add]
  show (∑ c : Fin 21, _) = (∑ c : Fin 21, _)
  refine Finset.sum_congr rfl fun c _ => ?_
  rw [lift_row _ r c, select_apply, cmpf_apply, splat_apply, splat_apply, rowOf_apply]

/-- Entry `(r, j)` of the reference's result. -/
theorem out_apply (x : FVec Ideal S524288x27 .f32) (d : FVec Ideal S21x1024x27 .f32) (r : Fin 524288) (j : Fin 4) :
    out x d (ix2 r j)
      = entry (x (ix2 r (0 : Fin 27))) (x (ix2 r (25 : Fin 27))) (fun c => lo d (ix1 c)) (fun c => hi d (ix1 c))
          (fun c => facs (F := Ideal) (ix1 c)) j := by
  unfold out
  refine (concat4_apply _ _ _ _ _ r j).trans ?_
  match j with
  | 0 =>
    refine (column_apply _ _ _ r 0).trans ?_
    show _ = hit _ _ _ _ _ _
    unfold hit
    refine Finset.sum_congr rfl fun c _ => ?_
    rw [addf_apply, colAt0_apply, rowOf_apply]
  | 1 =>
    refine (column_apply _ _ _ r 0).trans ?_
    show _ = hit _ _ _ _ _ _
    unfold hit
    refine Finset.sum_congr rfl fun c _ => ?_
    rw [addf_apply, colAt0_apply, rowOf_apply]
  | 2 =>
    refine (column_apply _ _ _ r 0).trans ?_
    show _ = hit _ _ _ _ _ _
    unfold hit
    refine Finset.sum_congr rfl fun c _ => ?_
    rw [addf_apply, colAt25_apply, rowOf_apply]
  | 3 =>
    refine (column_apply _ _ _ r 0).trans ?_
    show _ = hit _ _ _ _ _ _
    unfold hit
    refine Finset.sum_congr rfl fun c _ => ?_
    rw [addf_apply, colAt25_apply, rowOf_apply]

/-- The reference's result is `G` of the boards, the two offset vectors and the probabilities. -/
theorem out_eq_G (x : FVec Ideal S524288x27 .f32) (d : FVec Ideal S21x1024x27 .f32) :
    out x d = G x (lo d) (hi d) (facs (F := Ideal)) := by
  funext i
  obtain ⟨r, j, rfl⟩ : ∃ (r : Fin 524288) (j : Fin 4), i = ix2 r j := ⟨i 0, i 1, eq_ix2 i⟩
  exact out_apply x d r j

end Cert.ReferenceIdeal.HostValue

end
-- ==== Proof.lean ====
/-
  The certificate: the streaming kernel that, for each of 524288 boards, sums the dice combinations' probabilities over
  four threshold tests of slots 0 and 25 against per-combination offsets, and its jnp reference, are the same function
  of the arguments over the extended reals.

  At the ideal instance both programs compute, at board r and column j, the finite sum `Cert.HitSpec.entry`: over the 21
  combinations c, the probability of c where x r 0 + lo c is below (j = 0) or at (j = 1) the threshold -1, or x r 25 + hi c
  is at (j = 2) or above (j = 3) the threshold 1, and zero elsewhere; lo and hi are the least offset at slot 0 and the
  greatest at slot 25 over the candidate moves, taken from the second argument by the same host operations in both
  programs. The kernel's side is read off its frame run block by block (Proof/KernelValue.lean), the reference's off its
  sequence of host operations (Proof/RefRun.lean, Proof/RefValue.lean); the only law of arithmetic used is 0 + s = s for the
  reference's initial zero, so the precondition is never opened. The frames are the generated ones and the reference's run
  with its result dropped; the idealization rewrote no operation, so `preserves` states nothing.
-/
import proofs.«121889_j10582799418093_1_alg».proof.Defs
import proofs.«121889_j10582799418093_1_alg».proof.Proof.Gen.Kernel
import proofs.«121889_j10582799418093_1_alg».proof.Proof.Gen.Kernel.Skeleton
import proofs.«121889_j10582799418093_1_alg».proof.Proof.Gen.Kernel.Launch
import proofs.«121889_j10582799418093_1_alg».proof.Proof.Gen.Kernel.Points
import proofs.«121889_j10582799418093_1_alg».proof.Proof.Gen.Kernel.Frame
import proofs.«121889_j10582799418093_1_alg».proof.Proof.Gen.KernelIdeal
import proofs.«121889_j10582799418093_1_alg».proof.Proof.Gen.KernelIdeal.Skeleton
import proofs.«121889_j10582799418093_1_alg».proof.Proof.Gen.KernelIdeal.Launch
import proofs.«121889_j10582799418093_1_alg».proof.Proof.Gen.KernelIdeal.Points
import proofs.«121889_j10582799418093_1_alg».proof.Proof.Gen.KernelIdeal.Frame
import proofs.«121889_j10582799418093_1_alg».proof.Proof.Gen.KernelIdeal.Value
import proofs.«121889_j10582799418093_1_alg».proof.Proof.Gen.ReferenceIdeal
import proofs.«121889_j10582799418093_1_alg».proof.Proof.Gen.Pre_finite_inputs
import proofs.«121889_j10582799418093_1_alg».proof.Proof.Spec
import proofs.«121889_j10582799418093_1_alg».proof.Proof.KernelValue
import proofs.«121889_j10582799418093_1_alg».proof.Proof.RefRun
import proofs.«121889_j10582799418093_1_alg».proof.Proof.RefValue
import Idealize.ShloMosaic.Adequacy
import Idealize.ShloMosaic.Init

noncomputable section

namespace Cert.Proof

open Idealize.ShloMosaic Idealize.ShloMosaic.TcCoe Idealize.SL.Sem

/-- The two programs print the same table of the 21 probabilities. -/
theorem lit0_eq : Cert.ReferenceIdeal.lit0 = Cert.KernelIdeal.lit0 := by
  funext i
  fin_cases i <;> rfl

/-- So the probabilities are one vector. -/
theorem facs_eq : Cert.ReferenceIdeal.HostRun.facs (F := Ideal) = Cert.KernelIdeal.HitValue.facs := by
  unfold Cert.ReferenceIdeal.HostRun.facs Cert.KernelIdeal.HitValue.facs
  rw [lit0_eq]

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.HostRun.run (F := Ideal) m ρ)

/-- The ledger is empty. -/
theorem preserves : Cert.preserves_Kernel_KernelIdeal := trivial

/-- Both runs end with the result array at `G` of the boards, the two offset vectors and the probabilities: the kernel's by
    its blocks, the reference's index by index; the offset vectors are the same term on both sides and the probabilities the
    same table. -/
theorem algebraic : Cert.algebraic_KernelIdeal_ReferenceIdeal := by
  intro m ρ m' ρ' _ hagree
  refine ⟨fun c => Cert.KernelIdeal.HitValue.Gk m c, Cert.KernelIdeal.HitValue.run m ρ, ?_⟩
  refine (θ_run Cert.ReferenceIdeal.defs _ _).mono (fun _ h c => ⟨(h c).1.trans ?_, (h c).2⟩)
    (Cert.ReferenceIdeal.HostRun.run (F := Ideal) m' ρ')
  rw [(hagree c).1, (hagree c).2, Cert.ReferenceIdeal.HostValue.out_eq_G, facs_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
